-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg5 : FVec F S_ .f32) (main_arg6 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg6
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  main_v25

def fn {F : FTy → Type} [FloatOps F] (main_arg0 : FVec F S100000x128 .f32) (main_arg1 : IVec S2x1600000 32) (main_arg2 : FVec F S128x128 .f32) (main_arg3 : FVec F S128 .f32) (main_arg4 : FVec F S_ .f32) (main_arg5 : FVec F S_ .f32) (main_arg6 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_v13 main_v15 main_c_5
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1 : Shape := ⟨1, ![1]⟩
abbrev S3 : Shape := ⟨1, ![3]⟩
abbrev S1x3 : Shape := ⟨2, ![1, 3]⟩
abbrev S1x128 : Shape := ⟨2, ![1, 128]⟩
abbrev S1x1 : Shape := ⟨2, ![1, 1]⟩

abbrev nBuf : Space → Nat
  | .hbm => 80
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000, .f32⟩
  | .hbm, ⟨57, _⟩ => ⟨S1600000x1, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S3, .f32⟩
  | .hbm, ⟨77, _⟩ => ⟨S1x3, .f32⟩
  | .hbm, ⟨78, _⟩ => ⟨S1x128, .f32⟩
  | .hbm, ⟨79, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S1x3, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1 : S_.BroadcastsInDim S1 (![] : Fin 0 → Fin S1.rank)
  concatenates_S1_S1_S1_S3_d0 : Shape.Concatenates [S1, S1, S1] S3 0
  shapeCasts_S3_S1x3 : S3.ShapeCasts S1x3
  shapeCasts_S128_S1x128 : S128.ShapeCasts S1x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  slices_S1x3_o0_0_S1x1 : S1x3.Slices ![0, 0] S1x1
  inpos_S1x1_p0_0 : ∀ a, (![0, 0] : Fin 2 → Nat) a < S1x1.size a
  slices_S1x3_o0_1_S1x1 : S1x3.Slices ![0, 1] S1x1
  slices_S1x3_o0_2_S1x1 : S1x3.Slices ![0, 2] S1x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x1, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KData.lean ====
/-
  The two pipelined regions of the program, each at a parameter `V`, the contents of the core's buffers when the region
  is entered. Region 0 (the Laplacian combine, 20 row blocks of 5000): a block of the output is the pointwise value
  `v - d * (g + d * v)` of the blocks of `v`, `g` and the column `d` at the same point. Region 1 (the second combine, the
  polynomial in the three scalars, the 128-column matrix product and the bias): a block of the output is that value of the
  row blocks at the point and of the three whole small operands. For each region: a window's block at a point, the
  rectangles the body reads and writes (each the whole staging buffer), what the body leaves in the output's buffer,
  and the proof data of the pipeline (every input's buffer keeps its block, the output's buffer takes the body's value).
-/
import proofs.«167365_j86371792323181_1_alg».proof.Proof.Gen.Kernel.Launch
import proofs.«167365_j86371792323181_1_alg».proof.Proof.Gen.Kernel.Skeleton
import proofs.«167365_j86371792323181_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 5000×128 staging buffer, and the whole 5000×1 one. -/
abbrev rA : Rect S5000x128 := Rect.unit (s := S5000x128) ![0, 0] S5000x128.size inb_S5000x128_S5000x128_0_0
abbrev rC : Rect S5000x1 := Rect.unit (s := S5000x1) ![0, 0] S5000x1.size inb_S5000x1_S5000x1_0_0

/-- The output's staging buffer after region 0's body: its one store, of the combine of the three input blocks. -/
def out0_3 (x0 : Vec F S5000x128 .f32) (x1 : Vec F S5000x128 .f32) (x2 : Vec F S5000x1 .f32) : Vec F S5000x128 .f32 :=
  View.canon [⟨rA, k0_pay1 (View.ld x0 rA) (View.ld x1 rA) (View.ld x2 rC)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole buffers of the three small operands: the 128×128 matrix, the bias row, the three scalars. -/
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rK : Rect S1x3 := Rect.unit (s := S1x3) ![0, 0] S1x3.size inb_S1x3_S1x3_0_0

/-- The output's staging buffer after region 1's body: its one store. -/
def out1_7 (x0 x1 x2 : Vec F S5000x128 .f32) (x3 : Vec F S5000x1 .f32) (x4 : Vec F S128x128 .f32) (x5 : Vec F S1x128 .f32)
    (x6 : Vec F S1x3 .f32) : Vec F S5000x128 .f32 :=
  View.canon [⟨rA, k1_pay1 (View.ld x0 rA) (View.ld x1 rA) (View.ld x2 rA) (View.ld x3 rC) (View.ld x6 rK) (View.ld x4 rW) (View.ld x5 rB)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Cert.Kernel.Frm

end
-- ==== Proof.KVals.lean ====
/-
  The core's buffer contents at each boundary of the program: at launch, after the first host stretch (the degrees, the
  first neighbour sum), after region 0 (its output array at what the 20 write-backs leave, everything else as entered),
  after the second host stretch (the second neighbour sum, the coefficient row, the bias row), after region 1. No host
  operation and no region writes an argument, so each argument is read back through the fold to its launch contents.
-/
import proofs.«167365_j86371792323181_1_alg».proof.Proof.KData
import proofs.«167365_j86371792323181_1_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := (StableHlo.after_of_writes_sub hostOps1 (W2 m ρ c) hostOps1_writes (r := main_arg0) (by decide))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := (StableHlo.after_of_writes_sub hostOps0 (W0 m ρ c) hostOps0_writes (r := main_arg0) (by decide))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (StableHlo.after_of_writes_sub hostOps1 (W2 m ρ c) hostOps1_writes (r := main_arg1) (by decide))
    _ = W1 m ρ c (Proc.devRef .tc main_arg1) := W2_of_ne m ρ c main_arg1 (by decide)
    _ = W0 m ρ c (Proc.devRef .tc main_arg1) := (StableHlo.after_of_writes_sub hostOps0 (W0 m ρ c) hostOps0_writes (r := main_arg1) (by decide))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := (StableHlo.after_of_writes_sub hostOps1 (W2 m ρ c) hostOps1_writes (r := main_arg2) (by decide))
    _ = W1 m ρ c (Proc.devRef .tc main_arg2) := W2_of_ne m ρ c main_arg2 (by decide)
    _ = W0 m ρ c (Proc.devRef .tc main_arg2) := (StableHlo.after_of_writes_sub hostOps0 (W0 m ρ c) hostOps0_writes (r := main_arg2) (by decide))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (StableHlo.after_of_writes_sub hostOps1 (W2 m ρ c) hostOps1_writes (r := main_arg3) (by decide))
    _ = W1 m ρ c (Proc.devRef .tc main_arg3) := W2_of_ne m ρ c main_arg3 (by decide)
    _ = W0 m ρ c (Proc.devRef .tc main_arg3) := (StableHlo.after_of_writes_sub hostOps0 (W0 m ρ c) hostOps0_writes (r := main_arg3) (by decide))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (StableHlo.after_of_writes_sub hostOps1 (W2 m ρ c) hostOps1_writes (r := main_arg4) (by decide))
    _ = W1 m ρ c (Proc.devRef .tc main_arg4) := W2_of_ne m ρ c main_arg4 (by decide)
    _ = W0 m ρ c (Proc.devRef .tc main_arg4) := (StableHlo.after_of_writes_sub hostOps0 (W0 m ρ c) hostOps0_writes (r := main_arg4) (by decide))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (StableHlo.after_of_writes_sub hostOps1 (W2 m ρ c) hostOps1_writes (r := main_arg5) (by decide))
    _ = W1 m ρ c (Proc.devRef .tc main_arg5) := W2_of_ne m ρ c main_arg5 (by decide)
    _ = W0 m ρ c (Proc.devRef .tc main_arg5) := (StableHlo.after_of_writes_sub hostOps0 (W0 m ρ c) hostOps0_writes (r := main_arg5) (by decide))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (StableHlo.after_of_writes_sub hostOps1 (W2 m ρ c) hostOps1_writes (r := main_arg6) (by decide))
    _ = W1 m ρ c (Proc.devRef .tc main_arg6) := W2_of_ne m ρ c main_arg6 (by decide)
    _ = W0 m ρ c (Proc.devRef .tc main_arg6) := (StableHlo.after_of_writes_sub hostOps0 (W0 m ρ c) hostOps0_writes (r := main_arg6) (by decide))
    _ = m ((c : Thread nD τ).loc main_arg6) := rfl

end Cert.Kernel.Frm

end
-- ==== Proof.KBody0.lean ====
/-
  Region 0's body at any grid point: run on whole staging buffers holding the input blocks, it ends with the inputs'
  buffers as they were and the output's buffer at the region's value of the input blocks; the pipeline's obligation at every
  point follows, since each input's current buffer holds its block whether or not the point fetched it.
-/
import proofs.«167365_j86371792323181_1_alg».proof.Proof.KData

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store writes the whole output buffer. -/
theorem cover0 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging buffers, the inputs' at contents `xW` and the output's at anything. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KBody1.lean ====
/-
  Region 1's body at any grid point: run on whole staging buffers holding the input blocks, it ends with the inputs'
  buffers as they were and the output's buffer at the region's value of the input blocks; the pipeline's obligation at every
  point follows, since each input's current buffer holds its block whether or not the point fetched it.
-/
import proofs.«167365_j86371792323181_1_alg».proof.Proof.KData

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store writes the whole output buffer. -/
theorem cover1 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging buffers, the inputs' at contents `xW` and the output's at anything. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x3 .f32) (harg7 : arg7.IsWhole) (arg8 : Memref sig .tc .vmem S5000x128 .f32) (harg8 : arg8.IsWhole)
    (x0 : Vec F S5000x128 .f32) (x1 : Vec F S5000x128 .f32) (x2 : Vec F S5000x128 .f32) (x3 : Vec F S5000x1 .f32) (x4 : Vec F S128x128 .f32) (x5 : Vec F S1x128 .f32) (x6 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KRun.lean ====
/-
  The run of the whole program: @main is a host stretch, region 0, a host stretch, region 1. Each region is entered from
  the thread state "every unscoped buffer at the boundary's contents, the generator register at some state, nothing owed"
  and left at the next boundary's; the launch hands the first state over and the last one is read against the final memory.
  So every weakly fair execution terminates, nothing faults, and every unscoped buffer ends at the last boundary's contents:
  the arguments as launched, the result at what region 1's write-backs leave.
-/
import proofs.«167365_j86371792323181_1_alg».proof.Proof.KVals
import proofs.«167365_j86371792323181_1_alg».proof.Proof.KBody0
import proofs.«167365_j86371792323181_1_alg».proof.Proof.KBody1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates without a fault with every unscoped buffer at the last boundary's
    contents. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c main_arg0 (by decide)).trans (W4_main_arg0 m ρ c), (h c main_arg1 (by decide)).trans (W4_main_arg1 m ρ c),
     (h c main_arg2 (by decide)).trans (W4_main_arg2 m ρ c), (h c main_arg3 (by decide)).trans (W4_main_arg3 m ρ c),
     (h c main_arg4 (by decide)).trans (W4_main_arg4 m ρ c), (h c main_arg5 (by decide)).trans (W4_main_arg5 m ρ c),
     (h c main_arg6 (by decide)).trans (W4_main_arg6 m ρ c)⟩) (run_main m ρ)

end Cert.Kernel.Frm

end
-- ==== Proof.KIData.lean ====
/-
  The two pipelined regions of the program, each at a parameter `V`, the contents of the core's buffers when the region
  is entered. Region 0 (the Laplacian combine, 20 row blocks of 5000): a block of the output is the pointwise value
  `v - d * (g + d * v)` of the blocks of `v`, `g` and the column `d` at the same point. Region 1 (the second combine, the
  polynomial in the three scalars, the 128-column matrix product and the bias): a block of the output is that value of the
  row blocks at the point and of the three whole small operands. For each region: a window's block at a point, the
  rectangles the body reads and writes (each the whole staging buffer), what the body leaves in the output's buffer,
  and the proof data of the pipeline (every input's buffer keeps its block, the output's buffer takes the body's value).
-/
import proofs.«167365_j86371792323181_1_alg».proof.Proof.Gen.KernelIdeal.Launch
import proofs.«167365_j86371792323181_1_alg».proof.Proof.Gen.KernelIdeal.Skeleton
import proofs.«167365_j86371792323181_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over `V`'s arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 5000×128 staging buffer, and the whole 5000×1 one. -/
abbrev rA : Rect S5000x128 := Rect.unit (s := S5000x128) ![0, 0] S5000x128.size inb_S5000x128_S5000x128_0_0
abbrev rC : Rect S5000x1 := Rect.unit (s := S5000x1) ![0, 0] S5000x1.size inb_S5000x1_S5000x1_0_0

/-- The output's staging buffer after region 0's body: its one store, of the combine of the three input blocks. -/
def out0_3 (x0 : Vec F S5000x128 .f32) (x1 : Vec F S5000x128 .f32) (x2 : Vec F S5000x1 .f32) : Vec F S5000x128 .f32 :=
  View.canon [⟨rA, k0_pay1 (View.ld x0 rA) (View.ld x1 rA) (View.ld x2 rC)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The whole buffers of the three small operands: the 128×128 matrix, the bias row, the three scalars. -/
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rK : Rect S1x3 := Rect.unit (s := S1x3) ![0, 0] S1x3.size inb_S1x3_S1x3_0_0

/-- The output's staging buffer after region 1's body: its one store. -/
def out1_7 (x0 x1 x2 : Vec F S5000x128 .f32) (x3 : Vec F S5000x1 .f32) (x4 : Vec F S128x128 .f32) (x5 : Vec F S1x128 .f32)
    (x6 : Vec F S1x3 .f32) : Vec F S5000x128 .f32 :=
  View.canon [⟨rA, k1_pay1 (View.ld x0 rA) (View.ld x1 rA) (View.ld x2 rA) (View.ld x3 rC) (View.ld x6 rK) (View.ld x4 rW) (View.ld x5 rB)⟩]

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Cert.KernelIdeal.Frm

end
-- ==== Proof.KIVals.lean ====
/-
  The core's buffer contents at each boundary of the program: at launch, after the first host stretch (the degrees, the
  first neighbour sum), after region 0 (its output array at what the 20 write-backs leave, everything else as entered),
  after the second host stretch (the second neighbour sum, the coefficient row, the bias row), after region 1. No host
  operation and no region writes an argument, so each argument is read back through the fold to its launch contents.
-/
import proofs.«167365_j86371792323181_1_alg».proof.Proof.KIData
import proofs.«167365_j86371792323181_1_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := (StableHlo.after_of_writes_sub hostOps1 (W2 m ρ c) hostOps1_writes (r := main_arg0) (by decide))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := (StableHlo.after_of_writes_sub hostOps0 (W0 m ρ c) hostOps0_writes (r := main_arg0) (by decide))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (StableHlo.after_of_writes_sub hostOps1 (W2 m ρ c) hostOps1_writes (r := main_arg1) (by decide))
    _ = W1 m ρ c (Proc.devRef .tc main_arg1) := W2_of_ne m ρ c main_arg1 (by decide)
    _ = W0 m ρ c (Proc.devRef .tc main_arg1) := (StableHlo.after_of_writes_sub hostOps0 (W0 m ρ c) hostOps0_writes (r := main_arg1) (by decide))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 4).trans (((dat1 (V3 m ρ) c).arrAt_in 4 rfl _).trans (A_eq1 (V3 m ρ) c 4))
    _ = W2 m ρ c (Proc.devRef .tc main_arg2) := (StableHlo.after_of_writes_sub hostOps1 (W2 m ρ c) hostOps1_writes (r := main_arg2) (by decide))
    _ = W1 m ρ c (Proc.devRef .tc main_arg2) := W2_of_ne m ρ c main_arg2 (by decide)
    _ = W0 m ρ c (Proc.devRef .tc main_arg2) := (StableHlo.after_of_writes_sub hostOps0 (W0 m ρ c) hostOps0_writes (r := main_arg2) (by decide))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := (StableHlo.after_of_writes_sub hostOps1 (W2 m ρ c) hostOps1_writes (r := main_arg3) (by decide))
    _ = W1 m ρ c (Proc.devRef .tc main_arg3) := W2_of_ne m ρ c main_arg3 (by decide)
    _ = W0 m ρ c (Proc.devRef .tc main_arg3) := (StableHlo.after_of_writes_sub hostOps0 (W0 m ρ c) hostOps0_writes (r := main_arg3) (by decide))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (StableHlo.after_of_writes_sub hostOps1 (W2 m ρ c) hostOps1_writes (r := main_arg4) (by decide))
    _ = W1 m ρ c (Proc.devRef .tc main_arg4) := W2_of_ne m ρ c main_arg4 (by decide)
    _ = W0 m ρ c (Proc.devRef .tc main_arg4) := (StableHlo.after_of_writes_sub hostOps0 (W0 m ρ c) hostOps0_writes (r := main_arg4) (by decide))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := (StableHlo.after_of_writes_sub hostOps1 (W2 m ρ c) hostOps1_writes (r := main_arg5) (by decide))
    _ = W1 m ρ c (Proc.devRef .tc main_arg5) := W2_of_ne m ρ c main_arg5 (by decide)
    _ = W0 m ρ c (Proc.devRef .tc main_arg5) := (StableHlo.after_of_writes_sub hostOps0 (W0 m ρ c) hostOps0_writes (r := main_arg5) (by decide))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (StableHlo.after_of_writes_sub hostOps1 (W2 m ρ c) hostOps1_writes (r := main_arg6) (by decide))
    _ = W1 m ρ c (Proc.devRef .tc main_arg6) := W2_of_ne m ρ c main_arg6 (by decide)
    _ = W0 m ρ c (Proc.devRef .tc main_arg6) := (StableHlo.after_of_writes_sub hostOps0 (W0 m ρ c) hostOps0_writes (r := main_arg6) (by decide))
    _ = m ((c : Thread nD τ).loc main_arg6) := rfl

end Cert.KernelIdeal.Frm

end
-- ==== Proof.KIBody0.lean ====
/-
  Region 0's body at any grid point: run on whole staging buffers holding the input blocks, it ends with the inputs'
  buffers as they were and the output's buffer at the region's value of the input blocks; the pipeline's obligation at every
  point follows, since each input's current buffer holds its block whether or not the point fetched it.
-/
import proofs.«167365_j86371792323181_1_alg».proof.Proof.KIData

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store writes the whole output buffer. -/
theorem cover0 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging buffers, the inputs' at contents `xW` and the output's at anything. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S5000x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIBody1.lean ====
/-
  Region 1's body at any grid point: run on whole staging buffers holding the input blocks, it ends with the inputs'
  buffers as they were and the output's buffer at the region's value of the input blocks; the pipeline's obligation at every
  point follows, since each input's current buffer holds its block whether or not the point fetched it.
-/
import proofs.«167365_j86371792323181_1_alg».proof.Proof.KIData

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store writes the whole output buffer. -/
theorem cover1 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging buffers, the inputs' at contents `xW` and the output's at anything. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x3 .f32) (harg7 : arg7.IsWhole) (arg8 : Memref sig .tc .vmem S5000x128 .f32) (harg8 : arg8.IsWhole)
    (x0 : Vec F S5000x128 .f32) (x1 : Vec F S5000x128 .f32) (x2 : Vec F S5000x128 .f32) (x3 : Vec F S5000x1 .f32) (x4 : Vec F S128x128 .f32) (x5 : Vec F S1x128 .f32) (x6 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIRun.lean ====
/-
  The run of the whole program: @main is a host stretch, region 0, a host stretch, region 1. Each region is entered from
  the thread state "every unscoped buffer at the boundary's contents, the generator register at some state, nothing owed"
  and left at the next boundary's; the launch hands the first state over and the last one is read against the final memory.
  So every weakly fair execution terminates, nothing faults, and every unscoped buffer ends at the last boundary's contents:
  the arguments as launched, the result at what region 1's write-backs leave.
-/
import proofs.«167365_j86371792323181_1_alg».proof.Proof.KIVals
import proofs.«167365_j86371792323181_1_alg».proof.Proof.KIBody0
import proofs.«167365_j86371792323181_1_alg».proof.Proof.KIBody1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 over the thread state: entered from every unscoped buffer at `W1`, left at `W2`. Its arrays are split out
    of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates without a fault with every unscoped buffer at the last boundary's
    contents. -/
theorem run_main : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c main_arg0 (by decide)).trans (W4_main_arg0 m ρ c), (h c main_arg1 (by decide)).trans (W4_main_arg1 m ρ c),
     (h c main_arg2 (by decide)).trans (W4_main_arg2 m ρ c), (h c main_arg3 (by decide)).trans (W4_main_arg3 m ρ c),
     (h c main_arg4 (by decide)).trans (W4_main_arg4 m ρ c), (h c main_arg5 (by decide)).trans (W4_main_arg5 m ρ c),
     (h c main_arg6 (by decide)).trans (W4_main_arg6 m ρ c)⟩) (run_main m ρ)

end Cert.KernelIdeal.Frm

end
-- ==== Proof.KIHost.lean ====
/-
  What the host stretches hold when the regions are entered, at the extended reals: the degree column is the inverse
  square-root degrees reshaped to one column; the first neighbour sum is the gather, scale and scatter-add chain applied to
  `x`; the second is the SAME chain applied to region 0's output; the coefficient row is the three scalars side by side; the
  bias row is the bias reshaped. The edge rows, the degrees and the arguments are not touched by region 0.
-/
import proofs.«167365_j86371792323181_1_alg».proof.Proof.KIVals
import Idealize.ShloMosaic.Lib.StableHlo.Run
import Idealize.ShloMosaic.PureOps.Ideal

set_option maxRecDepth 16384

noncomputable section

namespace Cert.KernelIdeal.Val

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen Cert.KernelIdeal.Frm

/-- The edges' target nodes (row 0 of the edge list) and source nodes (row 1), a negative source index wrapped once by
    the node count, as both programs read them. -/
def rowOf (ei : IVec S2x1600000 32) : IVec S1600000 32 :=
  shapeCast _ (extractStridedSlice S1x1600000 ![0, 0] ei slices_S2x1600000_S1x1600000_0_0) shapeCasts_S1x1600000_S1600000
def colOf (ei : IVec S2x1600000 32) : IVec S1600000 32 :=
  select (cmpi .slt (shapeCast _ (extractStridedSlice S1x1600000 ![1, 0] ei slices_S2x1600000_S1x1600000_1_0) shapeCasts_S1x1600000_S1600000) (broadcastInDim S1600000 ![] bcast_S_S1600000 (constantI S_ 32 0#32)))
    (addi (shapeCast _ (extractStridedSlice S1x1600000 ![1, 0] ei slices_S2x1600000_S1x1600000_1_0) shapeCasts_S1x1600000_S1600000) (broadcastInDim S1600000 ![] bcast_S_S1600000 (constantI S_ 32 100000#32)))
    (shapeCast _ (extractStridedSlice S1x1600000 ![1, 0] ei slices_S2x1600000_S1x1600000_1_0) shapeCasts_S1x1600000_S1600000)
/-- The nodes' inverse square-root degrees: one plus the number of edges into the node, under the reciprocal square root. -/
def disOf (ei : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (rowOf ei))
      (broadcastInDim S1600000 ![] bcast_S_S1600000 (constant S_ .f32 0x3F800000#32)))
    (broadcastInDim S100000 ![] bcast_S_S100000 (constant S_ .f32 0x3F800000#32)))
/-- The neighbour sum of `v`: per edge the source node's row of `v` scaled by the source's `d`, added up at the target node. -/
def aggOf (ei : IVec S2x1600000 32) (v : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (rowOf ei))
    (mulf (broadcastInDim S1600000x128 ![0, 1] bcast_S1600000x1_S1600000x128_0_1
        (broadcastInDim S1600000x1 ![0] bcast_S1600000_S1600000x1_0
          (Host.gather gather_S100000_S1600000x1_S1600000_n_0_n_n_0_1_1 (disOf ei) (broadcastInDim S1600000x1 ![0] bcast_S1600000_S1600000x1_0 (colOf ei)))))
      (Host.gather gather_S100000x128_S1600000x1_S1600000x128_1_0_n_n_0_1_1128 v (broadcastInDim S1600000x1 ![0] bcast_S1600000_S1600000x1_0 (colOf ei))))

variable (m : (ℓ : Loc nD τ sig) → Buf (Elt Ideal) ℓ) (ρ : Dev nD → PrngReg)

/-- The edge list as launched. -/
abbrev eiOf (c : Dev nD) : IVec S2x1600000 32 := m ((c.tc : Thread nD τ).loc main_arg1)

theorem V1_v11 (c : Dev nD) :
    V1 m ρ c main_v11 = shapeCast S100000x1 (disOf (eiOf m c)) shapeCasts_S100000_S100000x1 := by
  show StableHlo.after hostOps0 (W0 m ρ c) (Proc.devRef .tc main_v11) = _
  after_results
  rfl

set_option maxHeartbeats 16000000 in
theorem V1_v31 (c : Dev nD) :
    V1 m ρ c main_v31 = aggOf (eiOf m c) (m ((c.tc : Thread nD τ).loc main_arg0)) := by
  show StableHlo.after hostOps0 (W0 m ρ c) (Proc.devRef .tc main_v31) = _
  after_results
  rfl

/-- The source rows before the wrap of a negative index. -/
def col0Of (ei : IVec S2x1600000 32) : IVec S1600000 32 :=
  shapeCast _ (extractStridedSlice S1x1600000 ![1, 0] ei slices_S2x1600000_S1x1600000_1_0) shapeCasts_S1x1600000_S1600000

/-! ## What region 0 leaves alone -/

theorem W2_main_arg0 (c : Dev nD) : W2 m ρ c (Proc.devRef .tc main_arg0) = m ((c.tc : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := (StableHlo.after_of_writes_sub hostOps0 (W0 m ρ c) hostOps0_writes (r := main_arg0) (by decide))
    _ = m ((c.tc : Thread nD τ).loc main_arg0) := rfl

theorem W2_main_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (StableHlo.after_of_writes_sub hostOps0 (W0 m ρ c) hostOps0_writes (r := main_arg2) (by decide))
    _ = m ((c.tc : Thread nD τ).loc main_arg2) := rfl

theorem W2_main_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (StableHlo.after_of_writes_sub hostOps0 (W0 m ρ c) hostOps0_writes (r := main_arg3) (by decide))
    _ = m ((c.tc : Thread nD τ).loc main_arg3) := rfl

theorem W2_main_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := (StableHlo.after_of_writes_sub hostOps0 (W0 m ρ c) hostOps0_writes (r := main_arg4) (by decide))
    _ = m ((c.tc : Thread nD τ).loc main_arg4) := rfl

theorem W2_main_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := (StableHlo.after_of_writes_sub hostOps0 (W0 m ρ c) hostOps0_writes (r := main_arg5) (by decide))
    _ = m ((c.tc : Thread nD τ).loc main_arg5) := rfl

theorem W2_main_arg6 (c : Dev nD) : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := (StableHlo.after_of_writes_sub hostOps0 (W0 m ρ c) hostOps0_writes (r := main_arg6) (by decide))
    _ = m ((c.tc : Thread nD τ).loc main_arg6) := rfl

theorem W2_v1 (c : Dev nD) : W2 m ρ c (Proc.devRef .tc main_v1) = rowOf (eiOf m c) :=
  (W2_of_ne m ρ c main_v1 (by decide)).trans (by
    show StableHlo.after hostOps0 (W0 m ρ c) (Proc.devRef .tc main_v1) = _
    after_results
    rfl)
theorem W2_v3 (c : Dev nD) : W2 m ρ c (Proc.devRef .tc main_v3) = col0Of (eiOf m c) :=
  (W2_of_ne m ρ c main_v3 (by decide)).trans (by
    show StableHlo.after hostOps0 (W0 m ρ c) (Proc.devRef .tc main_v3) = _
    after_results
    rfl)
theorem W2_v10 (c : Dev nD) : W2 m ρ c (Proc.devRef .tc main_v10) = disOf (eiOf m c) :=
  (W2_of_ne m ρ c main_v10 (by decide)).trans (by
    show StableHlo.after hostOps0 (W0 m ρ c) (Proc.devRef .tc main_v10) = _
    after_results
    rfl)
theorem W2_v11 (c : Dev nD) : W2 m ρ c (Proc.devRef .tc main_v11) = shapeCast S100000x1 (disOf (eiOf m c)) shapeCasts_S100000_S100000x1 :=
  ((W2_arr m ρ c 2).trans (((dat0 (V1 m ρ) c).arrAt_in 2 rfl _).trans (A_eq0 (V1 m ρ) c 2))).trans (V1_v11 m ρ c)

/-! ## What region 1 is entered with -/

theorem V3_arg0 (c : Dev nD) : V3 m ρ c main_arg0 = m ((c.tc : Thread nD τ).loc main_arg0) :=
  (StableHlo.after_of_writes_sub hostOps1 (W2 m ρ c) hostOps1_writes (r := main_arg0) (by decide)).trans (W2_main_arg0 m ρ c)
theorem V3_arg2 (c : Dev nD) : V3 m ρ c main_arg2 = m ((c.tc : Thread nD τ).loc main_arg2) :=
  (StableHlo.after_of_writes_sub hostOps1 (W2 m ρ c) hostOps1_writes (r := main_arg2) (by decide)).trans (W2_main_arg2 m ρ c)
theorem V3_v11 (c : Dev nD) : V3 m ρ c main_v11 = shapeCast S100000x1 (disOf (eiOf m c)) shapeCasts_S100000_S100000x1 :=
  (StableHlo.after_of_writes_sub hostOps1 (W2 m ρ c) hostOps1_writes (r := main_v11) (by decide)).trans (W2_v11 m ρ c)
/-- Region 0's output array, as region 1 finds it. -/
theorem V3_v32 (c : Dev nD) : V3 m ρ c main_v32 = (dat0 (V1 m ρ) c).arrAt 3 cfg0.N :=
  (StableHlo.after_of_writes_sub hostOps1 (W2 m ρ c) hostOps1_writes (r := main_v32) (by decide)).trans (W2_arr m ρ c 3)

theorem V3_v58 (c : Dev nD) :
    V3 m ρ c main_v58 = shapeCast S1x128 (m ((c.tc : Thread nD τ).loc main_arg3)) shapeCasts_S128_S1x128 := by
  show StableHlo.after hostOps1 (W2 m ρ c) (Proc.devRef .tc main_v58) = _
  after_results
  rw [W2_main_arg3]
  rfl

/-- A three-operand operation's result with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Reading a buffer after a list of host operations, a three-operand operation included. -/
macro "after_results3" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

set_option maxHeartbeats 4000000 in
theorem V3_v57 (c : Dev nD) :
    V3 m ρ c main_v57 = shapeCast S1x3 (concatenate S3 0 [⟨S1, broadcastInDim S1 ![] bcast_S_S1 (m ((c.tc : Thread nD τ).loc main_arg4))⟩,
      ⟨S1, broadcastInDim S1 ![] bcast_S_S1 (m ((c.tc : Thread nD τ).loc main_arg5))⟩,
      ⟨S1, broadcastInDim S1 ![] bcast_S_S1 (m ((c.tc : Thread nD τ).loc main_arg6))⟩] concatenates_S1_S1_S1_S3_d0) shapeCasts_S3_S1x3 := by
  show StableHlo.after hostOps1 (W2 m ρ c) (Proc.devRef .tc main_v57) = _
  after_results3
  rw [W2_main_arg4, W2_main_arg5, W2_main_arg6]
  rfl

set_option maxHeartbeats 16000000 in
/-- The second neighbour sum is the chain applied to region 0's output. -/
theorem V3_v52 (c : Dev nD) :
    V3 m ρ c main_v52 = aggOf (eiOf m c) ((dat0 (V1 m ρ) c).arrAt 3 cfg0.N) := by
  show StableHlo.after hostOps1 (W2 m ρ c) (Proc.devRef .tc main_v52) = _
  after_results
  rw [W2_v1, W2_v3, W2_v10, W2_arr m ρ c 3]
  rfl

end Cert.KernelIdeal.Val

end
-- ==== Proof.Spec.lean ====
/-
  The mathematics of the layer, over the extended reals, entry by entry. With `d` the nodes' inverse square-root degrees and
  `g` the neighbours' degree-weighted sum of `v`, one application of the normalized Laplacian is
  `(L v)[n, f] = v[n, f] - d[n] * (g[n, f] + d[n] * v[n, f])`; the layer's output is
  `out[n, o] = (∑ f, (a * (L² x)[n, f] + b * (L x)[n, f] + c * x[n, f]) * w[f, o]) + bias[o]`.
  The neighbour sum `agg` is a parameter: both programs compute it by the same gather, scale and scatter-add.
-/
import Idealize.ShloMosaic.PureOps.Ideal
import Idealize.ShloMosaic.Lib.ValueIdx

noncomputable section

open scoped BigOperators

namespace Cert.Spec

open Idealize.ShloMosaic Idealize.ShloMosaic.ValueIdx

/-- One value per node; per node and feature; the weight matrix; one value per output feature. -/
abbrev Nodes : Shape := ⟨1, ![100000]⟩
abbrev Feat : Shape := ⟨2, ![100000, 128]⟩
abbrev Mat : Shape := ⟨2, ![128, 128]⟩
abbrev Outs : Shape := ⟨1, ![128]⟩

/-- `L v = v - d * (g + d * v)`, the node's `d` on every feature. -/
def lap (d : Nodes.Idx → EReal) (v g : Feat.Idx → EReal) : Feat.Idx → EReal :=
  fun i => v i - d (ix1 (i 0)) * (g i + d (ix1 (i 0)) * v i)

theorem lap_apply (d : Nodes.Idx → EReal) (v g : Feat.Idx → EReal) (n : Fin 100000) (f : Fin 128) :
    lap d v g (ix2 n f) = v (ix2 n f) - d (ix1 n) * (g (ix2 n f) + d (ix1 n) * v (ix2 n f)) := rfl

/-- The polynomial `a * l2 + b * l1 + c * x` through the weight matrix, plus the bias. -/
def layer (a b c : EReal) (x l1 l2 : Feat.Idx → EReal) (w : Mat.Idx → EReal) (bias : Outs.Idx → EReal) : Feat.Idx → EReal :=
  fun i => (∑ k : Fin 128, (a * l2 (ix2 (i 0) k) + b * l1 (ix2 (i 0) k) + c * x (ix2 (i 0) k)) * w (ix2 k (i 1))) + bias (ix1 (i 1))

theorem layer_apply (a b c : EReal) (x l1 l2 : Feat.Idx → EReal) (w : Mat.Idx → EReal) (bias : Outs.Idx → EReal)
    (n : Fin 100000) (o : Fin 128) :
    layer a b c x l1 l2 w bias (ix2 n o)
      = (∑ k : Fin 128, (a * l2 (ix2 n k) + b * l1 (ix2 n k) + c * x (ix2 n k)) * w (ix2 k o)) + bias (ix1 o) := rfl

/-- The whole layer from `x`: `L x` and `L (L x)` with the neighbour sum `agg`. -/
def spectral (d : Nodes.Idx → EReal) (agg : (Feat.Idx → EReal) → (Feat.Idx → EReal)) (a b c : EReal) (x : Feat.Idx → EReal)
    (w : Mat.Idx → EReal) (bias : Outs.Idx → EReal) : Feat.Idx → EReal :=
  layer a b c x (lap d x (agg x)) (lap d (lap d x (agg x)) (agg (lap d x (agg x)))) w bias

end Cert.Spec

end
-- ==== Proof.KIValue0.lean ====
/-
  Region 0's output array as one function of the arrays the region finds: every 5000-row block is the Laplacian combine of
  the same rows of `v`, `g` and the degree column, and the 20 blocks cover the array.
-/
import proofs.«167365_j86371792323181_1_alg».proof.Proof.KIData
import proofs.«167365_j86371792323181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

variable (V : (c : Dev nD) → (b : Ref sig .tc) → Buf (Elt Ideal) ((c : Thread nD τ).loc b))

/-! ## Two layout operations read at an index: a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at an index -/

/-- The combine at row `p`, feature `q` of a block: `v - d * (g + d * v)` with the row's one `d`. -/
theorem pay_apply (x0 x1 : Vec Ideal S5000x128 .f32) (x2 : Vec Ideal S5000x1 .f32) (p : Fin 5000) (q : Fin 128) :
    k0_pay1 (F := Ideal) x0 x1 x2 (ix2 p q)
      = x0 (ix2 p q) - x2 (ix2 p (0 : Fin 1)) * (x1 (ix2 p q) + x2 (ix2 p (0 : Fin 1)) * x0 (ix2 p q)) := by
  unfold k0_pay1
  simp only [shapeCast_self]
  rw [subf_apply, mulf_apply, addf_apply, mulf_apply, broadcastTo_a1_ab_apply]

/-! ## The index maps, decided over the 20 points -/

theorem hz : (![0, 0] : Fin 2 → Nat) = fun _ => 0 := funext fun a => by fin_cases a <;> rfl

/-- Every window's block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## A window's block at a point, read where its rows sit in the array -/

/-- Row `p` of `v`'s block at point `t` is row `5000 t + p` of `v`. -/
theorem blk0_apply (c : Dev nD) (t : Fin cfg0.N) (p : Fin 5000) (q : Fin 128) (r : Fin 100000)
    (hr : r.val = t.val * 5000 + p.val) :
    iblk0 V c 0 t (ix2 p q) = (V c main_arg0 : S100000x128.Idx → EReal) (ix2 r q) := by
  unfold iblk0
  rw [View.read_apply]
  show V c main_arg0 _ = V c main_arg0 _
  congr 1
  funext a
  apply Fin.ext
  match a with
  | ⟨0, _⟩ => show win0_0.index t (0 : Fin 2) * 5000 + 1 * p.val = r.val; rw [(idx_facts t).1, hr]; omega
  | ⟨1, _⟩ => show win0_0.index t (1 : Fin 2) * 128 + 1 * q.val = q.val; rw [(idx_facts t).2.1]; omega

/-- Row `p` of the neighbour sum's block at point `t` is row `5000 t + p` of the neighbour sum. -/
theorem blk1_apply (c : Dev nD) (t : Fin cfg0.N) (p : Fin 5000) (q : Fin 128) (r : Fin 100000)
    (hr : r.val = t.val * 5000 + p.val) :
    iblk0 V c 1 t (ix2 p q) = (V c main_v31 : S100000x128.Idx → EReal) (ix2 r q) := by
  unfold iblk0
  rw [View.read_apply]
  show V c main_v31 _ = V c main_v31 _
  congr 1
  funext a
  apply Fin.ext
  match a with
  | ⟨0, _⟩ => show win0_1.index t (0 : Fin 2) * 5000 + 1 * p.val = r.val; rw [(idx_facts t).2.2.1, hr]; omega
  | ⟨1, _⟩ => show win0_1.index t (1 : Fin 2) * 128 + 1 * q.val = q.val; rw [(idx_facts t).2.2.2.1]; omega

/-- Entry `p` of the degree column's block at point `t` is entry `5000 t + p` of the column. -/
theorem blk2_apply (c : Dev nD) (t : Fin cfg0.N) (p : Fin 5000) (u : Fin 1) (r : Fin 100000)
    (hr : r.val = t.val * 5000 + p.val) :
    iblk0 V c 2 t (ix2 p u) = (V c main_v11 : S100000x1.Idx → EReal) (ix2 r u) := by
  unfold iblk0
  rw [View.read_apply]
  show V c main_v11 _ = V c main_v11 _
  congr 1
  funext a
  apply Fin.ext
  match a with
  | ⟨0, _⟩ => show win0_2.index t (0 : Fin 2) * 5000 + 1 * p.val = r.val; rw [(idx_facts t).2.2.2.2.1, hr]; omega
  | ⟨1, _⟩ => show win0_2.index t (1 : Fin 2) * 1 + 1 * u.val = u.val; rw [(idx_facts t).2.2.2.2.2.1]; omega

/-! ## What a point writes back -/

/-- Point `t` writes back block `t` of the Laplacian combine of the arrays the region finds. -/
theorem flushed_eq (c : Dev nD) (d : FVec Ideal S100000 .f32)
    (hd : V c main_v11 = shapeCast S100000x1 d shapeCasts_S100000_S100000x1) (t : Fin cfg0.N) :
    (dat0 (F := Ideal) V c).flushed 3 t
      = ((cfg0.win 3).blk t).view.read (Elt Ideal) (Cert.Spec.lap d (V c main_arg0) (V c main_v31)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz]
  refine funext fun (j : S5000x128.Idx) => ?_
  obtain ⟨p, q, rfl⟩ : ∃ (p : Fin 5000) (q : Fin 128), j = ix2 p q := ⟨j 0, j 1, eq_ix2 j⟩
  have ht : t.val < 20 := t.isLt
  have hr : t.val * 5000 + p.val < 100000 := by have := p.isLt; omega
  have e3 : ((cfg0.win 3).blk t).view.emb (ix2 p q) = (ix2 (⟨t.val * 5000 + p.val, hr⟩ : Fin 100000) q : S100000x128.Idx) := by
    funext a
    apply Fin.ext
    match a with
    | ⟨0, _⟩ => show win0_3.index t (0 : Fin 2) * 5000 + 1 * p.val = t.val * 5000 + p.val; rw [(idx_facts t).2.2.2.2.2.2.1]; omega
    | ⟨1, _⟩ => show win0_3.index t (1 : Fin 2) * 128 + 1 * q.val = q.val; rw [(idx_facts t).2.2.2.2.2.2.2]; omega
  show k0_pay1 (F := Ideal) (iblk0 V c 0 t) (iblk0 V c 1 t) (iblk0 V c 2 t) (ix2 p q)
     = Cert.Spec.lap d (V c main_arg0) (V c main_v31) (((cfg0.win 3).blk t).view.emb (ix2 p q))
  rw [e3, Cert.Spec.lap_apply, pay_apply, blk0_apply V c t p q ⟨t.val * 5000 + p.val, hr⟩ rfl,
    blk1_apply V c t p q ⟨t.val * 5000 + p.val, hr⟩ rfl, blk2_apply V c t p 0 ⟨t.val * 5000 + p.val, hr⟩ rfl, hd,
    shapeCast_a_a1_apply]

/-! ## The 20 blocks cover the array -/

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- Row `r` lies in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  obtain ⟨-, -, -, -, -, -, e0, e1⟩ := idx_facts (⟨(i 0).val / 5000, hlt⟩ : Fin cfg0.N)
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]
    omega

/-! ## The array after the region -/

theorem final0 (c : Dev nD) (d : FVec Ideal S100000 .f32)
    (hd : V c main_v11 = shapeCast S100000x1 d shapeCasts_S100000_S100000x1) :
    (dat0 (F := Ideal) V c).arrAt 3 cfg0.N = Cert.Spec.lap d (V c main_arg0) (V c main_v31) :=
  (dat0 (F := Ideal) V c).arrAt_eq_of_cover 3 (Cert.Spec.lap d (V c main_arg0) (V c main_v31))
    (fun t _ => flushed_eq V c d hd t) cover

end Cert.KernelIdeal.Val

end
-- ==== Proof.KIValue1.lean ====
/-
  Region 1's output array as one function of the arrays the region finds: every 5000-row block is the layer's value on the
  same rows, and the 20 blocks cover the array.

  The body's one store, read at a row `p` and a column `q` of the block: with `l2 = lx - dis * (agg2 + dis * lx)` on
  row `p`, it is `(∑ f, (a * l2[p, f] + b * lx[p, f] + c * x[p, f]) * w[f, q]) + bias[q]` — the narrowing of the
  operands is the identity on the extended reals and the product into the zero accumulator is the plain sum over the
  contracted axis. The row blocks of `x`, `lx`, `agg2` and of the degree column at point `t` are rows
  `5000 t … 5000 t + 4999` of their arrays, the matrix, the bias row and the three scalars are read whole, so the
  block written back at `t` is rows `5000 t …` of `Cert.Spec.layer`; row `r` lies in the block of point `r / 5000`.
-/
import proofs.«167365_j86371792323181_1_alg».proof.Proof.KIData
import proofs.«167365_j86371792323181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

variable (V : (c : Dev nD) → (b : Ref sig .tc) → Buf (Elt Ideal) ((c : Thread nD τ).loc b))

namespace R1

theorem hz : (![0, 0] : Fin 2 → Nat) = fun _ => 0 := funext fun a => by fin_cases a <;> rfl

/-! ## The matrix product at a row and a column -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into the zero accumulator, at row `p` and column `q`: the sum over the 128 contracted
    columns of the left operand's row `p` times the right operand's column `q`. -/
theorem matmul_at (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ kk : Fin 128, lhs (ix2 p kk) * rhs (ix2 kk q) := by
  show FloatOps.matmul dot_S5000x128_S128x128_S5000x128_1_0_0_1_n_n none lhs rhs (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The small operands read at an index -/

/-- A scalar of the 1×3 row of coefficients: the cast to the same shape, the 1×1 slice at column `j` and the extraction
    of its one entry read the row's entry `(0, j)`. -/
theorem coef_read (x4 : Vec Ideal S1x3 .f32) (j : Nat) (hj : j < 3) (h : S1x3.ShapeCasts S1x3) (hs : S1x3.Slices ![0, j] S1x1)
    (hp : ∀ a, (![0, 0] : Fin 2 → Nat) a < S1x1.size a) :
    extractAt ![0, 0] (extractStridedSlice S1x1 ![0, j] (shapeCast S1x3 x4 h) hs) hp = x4 (ix2 0 ⟨j, hj⟩) := by
  rw [shapeCast_self]
  unfold extractAt
  refine extractStridedSlice_apply _ _ _ _ (ix2 0 ⟨j, hj⟩) fun a => ?_
  match a with
  | ⟨0, _⟩ => rfl
  | ⟨1, _⟩ => rfl

/-- The bias row broadcast down the block's rows reads, at `(p, q)`, the row's entry of column `q`. -/
theorem bias_read (x6 : Vec Ideal S1x128 .f32) (h : S1x128.ShapeCasts S1x128) (hb : S1x128.Broadcasts S5000x128)
    (p : Fin 5000) (q : Fin 128) :
    broadcastTo S5000x128 (shapeCast S1x128 x6 h) hb (ix2 p q) = x6 (ix2 0 q) := by
  rw [shapeCast_self]
  refine broadcastTo_apply _ _ _ (ix2 0 q) fun a => ?_
  match a with
  | ⟨0, _⟩ => rfl
  | ⟨1, _⟩ => rfl

/-- The degree column broadcast along the block's columns reads, at `(p, q)`, the column's entry of row `p`. -/
theorem deg_read (x3 : Vec Ideal S5000x1 .f32) (h : S5000x1.ShapeCasts S5000x1) (hb : S5000x1.Broadcasts S5000x128)
    (p : Fin 5000) (q : Fin 128) :
    broadcastTo S5000x128 (shapeCast S5000x1 x3 h) hb (ix2 p q) = x3 (ix2 p 0) := by
  rw [shapeCast_self]
  refine broadcastTo_apply _ _ _ (ix2 p 0) fun a => ?_
  match a with
  | ⟨0, _⟩ => rfl
  | ⟨1, _⟩ => rfl

/-- The three scalars laid side by side and cast to one row: entry `(0, j)` of the row is the `j`-th scalar. -/
theorem coef_row (a b k : FVec Ideal S_ .f32) (hbc : S_.BroadcastsInDim S1 (![] : Fin 0 → Fin S1.rank))
    (hcat : Shape.Concatenates [S1, S1, S1] S3 0) (hsc : S3.ShapeCasts S1x3) :
    let row := shapeCast S1x3 (concatenate S3 0 [⟨S1, broadcastInDim S1 ![] hbc a⟩, ⟨S1, broadcastInDim S1 ![] hbc b⟩,
      ⟨S1, broadcastInDim S1 ![] hbc k⟩] hcat) hsc
    row (ix2 0 0) = a ix0 ∧ row (ix2 0 1) = b ix0 ∧ row (ix2 0 2) = k ix0 := by
  intro row
  have hbr : ∀ (x : FVec Ideal S_ .f32) (i : S1.Idx), broadcastInDim S1 ![] hbc x i = x ix0 := fun x i =>
    broadcastInDim_apply _ hbc x i ix0 fun a => a.elim0
  have hax : ∀ b : Fin S1.rank, b.cast (rfl : S1.rank = S3.rank) ≠ (0 : Fin S3.rank) → False := fun b hb =>
    hb (Fin.ext (Nat.lt_one_iff.mp b.isLt))
  refine ⟨?_, ?_, ?_⟩
  · refine (shapeCast_a_1a_apply _ hsc 0 0).trans ?_
    exact (concatenate_apply_piece (0 : Fin S3.rank) [⟨S1, broadcastInDim S1 ![] hbc a⟩, ⟨S1, broadcastInDim S1 ![] hbc b⟩,
      ⟨S1, broadcastInDim S1 ![] hbc k⟩] hcat (ix1 0) 0 (Nat.succ_pos _) S1 _ rfl rfl 0 rfl (ix1 0) (fun b hb => (hax b hb).elim) rfl).trans (hbr a _)
  · refine (shapeCast_a_1a_apply _ hsc 0 1).trans ?_
    exact (concatenate_apply_piece (0 : Fin S3.rank) [⟨S1, broadcastInDim S1 ![] hbc a⟩, ⟨S1, broadcastInDim S1 ![] hbc b⟩,
      ⟨S1, broadcastInDim S1 ![] hbc k⟩] hcat (ix1 1) 1 (Nat.succ_lt_succ (Nat.succ_pos _)) S1 _ rfl rfl 1 rfl (ix1 0) (fun b hb => (hax b hb).elim) rfl).trans (hbr b _)
  · refine (shapeCast_a_1a_apply _ hsc 0 2).trans ?_
    exact (concatenate_apply_piece (0 : Fin S3.rank) [⟨S1, broadcastInDim S1 ![] hbc a⟩, ⟨S1, broadcastInDim S1 ![] hbc b⟩,
      ⟨S1, broadcastInDim S1 ![] hbc k⟩] hcat (ix1 2) 2 (Nat.lt_succ_self _) S1 _ rfl rfl 2 rfl (ix1 0) (fun b hb => (hax b hb).elim) rfl).trans (hbr k _)

/-- One value per node cast to a column reads, at row `n`, the node's value. -/
theorem col_read (d : FVec Ideal S100000 .f32) (h : S100000.ShapeCasts S100000x1) (n : Fin 100000) (u : Fin 1) :
    shapeCast S100000x1 d h (ix2 n u) = d (ix1 n) :=
  shapeCast_apply d h _ _ (by
    have hu : u.val = 0 := by omega
    rw [Shape.rowMajor_val_two, Shape.rowMajor_val_one]
    show n.val = n.val * 1 + u.val
    rw [hu, Nat.mul_one, Nat.add_zero])

/-! ## The body's value at a row and a column of the block -/

/-- The payload at `(p, q)`: with `l2 = lx - dis * (agg2 + dis * lx)` on row `p`, the sum over the 128 features of
    `(a * l2 + b * lx + c * x)` times the matrix's column `q`, plus the bias of column `q`; the three scalars are the
    entries of the 1×3 row. -/
theorem pay_at (x0 x1 x2 : Vec Ideal S5000x128 .f32) (x3 : Vec Ideal S5000x1 .f32) (x4 : Vec Ideal S1x3 .f32)
    (x5 : Vec Ideal S128x128 .f32) (x6 : Vec Ideal S1x128 .f32) (p : Fin 5000) (q : Fin 128) :
    Gen.k1_pay1 x0 x1 x2 x3 x4 x5 x6 (ix2 p q)
      = (∑ kk : Fin 128, (x4 (ix2 0 0) * (x1 (ix2 p kk) - x3 (ix2 p 0) * (x2 (ix2 p kk) + x3 (ix2 p 0) * x1 (ix2 p kk)))
          + x4 (ix2 0 1) * x1 (ix2 p kk) + x4 (ix2 0 2) * x0 (ix2 p kk)) * x5 (ix2 kk q)) + x6 (ix2 0 q) := by
  unfold Gen.k1_pay1
  refine congrArg₂ (· + ·) ((matmul_at _ _ p q).trans (Finset.sum_congr rfl fun kk _ => ?_)) (bias_read x6 _ _ p q)
  refine congrArg₂ (· * ·) ?_ rfl
  have e1 : shapeCast S5000x128 x1 shapeCasts_S5000x128_S5000x128 (ix2 p kk) = x1 (ix2 p kk) := congrFun (shapeCast_self x1 _) _
  have e2 : shapeCast S5000x128 x2 shapeCasts_S5000x128_S5000x128 (ix2 p kk) = x2 (ix2 p kk) := congrFun (shapeCast_self x2 _) _
  have e3 := deg_read x3 shapeCasts_S5000x1_S5000x1 broadcasts_S5000x1_S5000x128 p kk
  refine congrArg₂ (· + ·) (congrArg₂ (· + ·) (congrArg₂ (· * ·) (coef_read x4 0 (by decide) _ _ _) ?_)
    (congrArg₂ (· * ·) (coef_read x4 1 (by decide) _ _ _) e1)) (congrArg₂ (· * ·) (coef_read x4 2 (by decide) _ _ _) rfl)
  exact congrArg₂ (· - ·) e1 (congrArg₂ (· * ·) e3 (congrArg₂ (· + ·) e2 (congrArg₂ (· * ·) e3 e1)))

/-- The payload of the blocks of rows `T * 5000 …` of the arrays, at the block's `(p, q)`, is the layer's value at the
    array's row `n = T * 5000 + p` and column `q`. -/
theorem block_value (X L G : Vec Ideal S100000x128 .f32) (D : Vec Ideal S100000x1 .f32) (K : Vec Ideal S1x3 .f32)
    (W : Vec Ideal S128x128 .f32) (B : Vec Ideal S1x128 .f32) (d : FVec Ideal S100000 .f32) (bias : FVec Ideal S128 .f32)
    (a b k : EReal) (hD : ∀ n : Fin 100000, D (ix2 n 0) = d (ix1 n)) (hB : ∀ q : Fin 128, B (ix2 0 q) = bias (ix1 q))
    (hK : K (ix2 0 0) = a ∧ K (ix2 0 1) = b ∧ K (ix2 0 2) = k)
    (x0 x1 x2 : Vec Ideal S5000x128 .f32) (x3 : Vec Ideal S5000x1 .f32) (x4 : Vec Ideal S1x3 .f32)
    (x5 : Vec Ideal S128x128 .f32) (x6 : Vec Ideal S1x128 .f32) (T : Nat)
    (h0 : ∀ (y : S5000x128.Idx) (i : S100000x128.Idx), (i 0).val = T * 5000 + (y 0).val → (i 1).val = (y 1).val → x0 y = X i)
    (h1 : ∀ (y : S5000x128.Idx) (i : S100000x128.Idx), (i 0).val = T * 5000 + (y 0).val → (i 1).val = (y 1).val → x1 y = L i)
    (h2 : ∀ (y : S5000x128.Idx) (i : S100000x128.Idx), (i 0).val = T * 5000 + (y 0).val → (i 1).val = (y 1).val → x2 y = G i)
    (h3 : ∀ (y : S5000x1.Idx) (i : S100000x1.Idx), (i 0).val = T * 5000 + (y 0).val → (i 1).val = (y 1).val → x3 y = D i)
    (h4 : x4 = K) (h5 : x5 = W) (h6 : x6 = B)
    (y : S5000x128.Idx) (i : S100000x128.Idx) (hi0 : (i 0).val = T * 5000 + (y 0).val) (hi1 : (i 1).val = (y 1).val) :
    Gen.k1_pay1 x0 x1 x2 x3 x4 x5 x6 y = Cert.Spec.layer a b k X L (Cert.Spec.lap d L G) W bias i := by
  obtain ⟨p, q, rfl⟩ : ∃ (p : Fin 5000) (q : Fin 128), y = ix2 p q := ⟨y 0, y 1, eq_ix2 y⟩
  obtain ⟨n, o, rfl⟩ : ∃ (n : Fin 100000) (o : Fin 128), i = ix2 n o := ⟨i 0, i 1, eq_ix2 i⟩
  have hn : n.val = T * 5000 + p.val := hi0
  obtain rfl : o = q := Fin.ext hi1
  subst h4 h5 h6
  rw [pay_at, Cert.Spec.layer_apply, hK.1, hK.2.1, hK.2.2, hB o]
  refine congrArg₂ (· + ·) (Finset.sum_congr rfl fun kk _ => ?_) rfl
  rw [Cert.Spec.lap_apply, h0 (ix2 p kk) (ix2 n kk) hn rfl, h1 (ix2 p kk) (ix2 n kk) hn rfl, h2 (ix2 p kk) (ix2 n kk) hn rfl,
    h3 (ix2 p 0) (ix2 n 0) hn rfl, hD n]

/-! ## From the blocks to the array -/

/-- The printed index maps over the 20 grid points: the five row-block windows sit at block `(t, 0)`, the three whole
    operands at block `(0, 0)`. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Window 0's block at point `t` is rows `5000 t …` of `x`. -/
theorem blk_read0 (c : Dev nD) (t : Fin cfg1.N) (y : S5000x128.Idx) (i : S100000x128.Idx)
    (hi0 : (i 0).val = t.val * 5000 + (y 0).val) (hi1 : (i 1).val = (y 1).val) :
    (iblk1 V c 0 t : Vec Ideal S5000x128 .f32) y = (V c main_arg0 : Vec Ideal S100000x128 .f32) i := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t (0 : Fin 2) * 5000 + 1 * (y 0).val = (i 0).val; rw [e0, hi0]; omega
  | ⟨1, _⟩ => show win1_0.index t (1 : Fin 2) * 128 + 1 * (y 1).val = (i 1).val; rw [e1, hi1]; omega

/-- Window 1's block at point `t` is rows `5000 t …` of `L x`. -/
theorem blk_read1 (c : Dev nD) (t : Fin cfg1.N) (y : S5000x128.Idx) (i : S100000x128.Idx)
    (hi0 : (i 0).val = t.val * 5000 + (y 0).val) (hi1 : (i 1).val = (y 1).val) :
    (iblk1 V c 1 t : Vec Ideal S5000x128 .f32) y = (V c main_v32 : Vec Ideal S100000x128 .f32) i := by
  obtain ⟨-, ⟨e0, e1⟩, -⟩ := idx_facts t
  unfold iblk1
  rw [View.read_apply]
  show V c main_v32 _ = V c main_v32 _
  congr 1
  funext a
  apply Fin.ext
  match a with
  | ⟨0, _⟩ => show win1_1.index t (0 : Fin 2) * 5000 + 1 * (y 0).val = (i 0).val; rw [e0, hi0]; omega
  | ⟨1, _⟩ => show win1_1.index t (1 : Fin 2) * 128 + 1 * (y 1).val = (i 1).val; rw [e1, hi1]; omega

/-- Window 2's block at point `t` is rows `5000 t …` of the neighbour sum. -/
theorem blk_read2 (c : Dev nD) (t : Fin cfg1.N) (y : S5000x128.Idx) (i : S100000x128.Idx)
    (hi0 : (i 0).val = t.val * 5000 + (y 0).val) (hi1 : (i 1).val = (y 1).val) :
    (iblk1 V c 2 t : Vec Ideal S5000x128 .f32) y = (V c main_v52 : Vec Ideal S100000x128 .f32) i := by
  obtain ⟨-, -, ⟨e0, e1⟩, -⟩ := idx_facts t
  unfold iblk1
  rw [View.read_apply]
  show V c main_v52 _ = V c main_v52 _
  congr 1
  funext a
  apply Fin.ext
  match a with
  | ⟨0, _⟩ => show win1_2.index t (0 : Fin 2) * 5000 + 1 * (y 0).val = (i 0).val; rw [e0, hi0]; omega
  | ⟨1, _⟩ => show win1_2.index t (1 : Fin 2) * 128 + 1 * (y 1).val = (i 1).val; rw [e1, hi1]; omega

/-- Window 3's block at point `t` is rows `5000 t …` of the degree column. -/
theorem blk_read3 (c : Dev nD) (t : Fin cfg1.N) (y : S5000x1.Idx) (i : S100000x1.Idx)
    (hi0 : (i 0).val = t.val * 5000 + (y 0).val) (hi1 : (i 1).val = (y 1).val) :
    (iblk1 V c 3 t : Vec Ideal S5000x1 .f32) y = (V c main_v11 : Vec Ideal S100000x1 .f32) i := by
  obtain ⟨-, -, -, ⟨e0, e1⟩, -⟩ := idx_facts t
  unfold iblk1
  rw [View.read_apply]
  show V c main_v11 _ = V c main_v11 _
  congr 1
  funext a
  apply Fin.ext
  match a with
  | ⟨0, _⟩ => show win1_3.index t (0 : Fin 2) * 5000 + 1 * (y 0).val = (i 0).val; rw [e0, hi0]; omega
  | ⟨1, _⟩ => show win1_3.index t (1 : Fin 2) * 1 + 1 * (y 1).val = (i 1).val; rw [e1, hi1]; omega

/-- Window 4's block at every point is the whole matrix. -/
theorem blk_read4 (c : Dev nD) (t : Fin cfg1.N) :
    (iblk1 V c 4 t : Vec Ideal S128x128 .f32) = (V c main_arg2 : Vec Ideal S128x128 .f32) := by
  obtain ⟨-, -, -, -, ⟨e0, e1⟩, -⟩ := idx_facts t
  funext y
  unfold iblk1
  rw [View.read_apply]
  show V c main_arg2 _ = V c main_arg2 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block at every point is the whole bias row. -/
theorem blk_read5 (c : Dev nD) (t : Fin cfg1.N) :
    (iblk1 V c 5 t : Vec Ideal S1x128 .f32) = (V c main_v58 : Vec Ideal S1x128 .f32) := by
  obtain ⟨-, -, -, -, -, ⟨e0, e1⟩, -⟩ := idx_facts t
  funext y
  unfold iblk1
  rw [View.read_apply]
  show V c main_v58 _ = V c main_v58 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6's block at every point is the whole row of the three scalars. -/
theorem blk_read6 (c : Dev nD) (t : Fin cfg1.N) :
    (iblk1 V c 6 t : Vec Ideal S1x3 .f32) = (V c main_v57 : Vec Ideal S1x3 .f32) := by
  obtain ⟨-, -, -, -, -, -, ⟨e0, e1⟩, -⟩ := idx_facts t
  funext y
  unfold iblk1
  rw [View.read_apply]
  show V c main_v57 _ = V c main_v57 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 3 + 1 * (y 1).val = (y 1).val; rw [e1]; omega

/-- What point `t` writes back is block `t` of the layer's value on the arrays the region finds. -/
theorem flushed_eq (c : Dev nD) (d : FVec Ideal S100000 .f32) (bias : FVec Ideal S128 .f32) (a b k : FVec Ideal S_ .f32)
    (hd : V c main_v11 = shapeCast S100000x1 d shapeCasts_S100000_S100000x1)
    (hb : V c main_v58 = shapeCast S1x128 bias shapeCasts_S128_S1x128)
    (hk : V c main_v57 = shapeCast S1x3 (concatenate S3 0 [⟨S1, broadcastInDim S1 ![] bcast_S_S1 a⟩, ⟨S1, broadcastInDim S1 ![] bcast_S_S1 b⟩,
      ⟨S1, broadcastInDim S1 ![] bcast_S_S1 k⟩] concatenates_S1_S1_S1_S3_d0) shapeCasts_S3_S1x3)
    (t : Fin cfg1.N) :
    (dat1 (F := Ideal) V c).flushed 7 t = ((cfg1.win 7).blk t).view.read (Elt Ideal)
      (Cert.Spec.layer (a ix0) (b ix0) (k ix0) (V c main_arg0) (V c main_v32) (Cert.Spec.lap d (V c main_v32) (V c main_v52)) (V c main_arg2) bias) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz, View.ld_unit_zero (S := S1x3) hz,
    View.ld_unit_zero (S := S128x128) hz, View.ld_unit_zero (S := S1x128) hz]
  have hD : ∀ n : Fin 100000, (V c main_v11 : Vec Ideal S100000x1 .f32) (ix2 n 0) = d (ix1 n) := fun n => by
    rw [hd]; exact col_read d _ n 0
  have hB : ∀ q : Fin 128, (V c main_v58 : Vec Ideal S1x128 .f32) (ix2 0 q) = bias (ix1 q) := fun q => by
    rw [hb]; exact shapeCast_a_1a_apply bias _ 0 q
  have hK : (V c main_v57 : Vec Ideal S1x3 .f32) (ix2 0 0) = a ix0 ∧ (V c main_v57 : Vec Ideal S1x3 .f32) (ix2 0 1) = b ix0
      ∧ (V c main_v57 : Vec Ideal S1x3 .f32) (ix2 0 2) = k ix0 := by
    rw [hk]; exact coef_row a b k _ _ _
  obtain ⟨-, -, -, -, -, -, -, ⟨e0, e1⟩⟩ := idx_facts t
  funext j
  refine block_value (V c main_arg0) (V c main_v32) (V c main_v52) (V c main_v11) (V c main_v57) (V c main_arg2) (V c main_v58) d bias
    (a ix0) (b ix0) (k ix0) hD hB hK (iblk1 V c 0 t) (iblk1 V c 1 t) (iblk1 V c 2 t) (iblk1 V c 3 t) (iblk1 V c 6 t) (iblk1 V c 4 t)
    (iblk1 V c 5 t) t.val (blk_read0 V c t) (blk_read1 V c t) (blk_read2 V c t) (blk_read3 V c t) (blk_read6 V c t) (blk_read4 V c t)
    (blk_read5 V c t) j (((cfg1.win 7).blk t).view.emb j) ?_ ?_
  · show win1_7.index t (0 : Fin 2) * 5000 + 1 * (j 0).val = t.val * 5000 + (j 0).val
    rw [e0]; omega
  · show win1_7.index t (1 : Fin 2) * 128 + 1 * (j 1).val = (j 1).val
    rw [e1]; omega

/-- An index of the array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v59).slice (win1_7.rect t)).set ↔ _
  rw [View.set_slice_whole, Rect.mem_set_unit]
  exact Iff.rfl

/-- Row `r` of the array lies in the block of point `r / 5000`: the 20 blocks cover the array. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have ht : (i 0).val / 5000 < cfg1.N := by show (i 0).val / 5000 < 20; omega
  obtain ⟨-, -, -, -, -, -, -, ⟨e0, e1⟩⟩ := idx_facts ⟨(i 0).val / 5000, ht⟩
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e1]; omega

end R1

theorem final1 (c : Dev nD) (d : FVec Ideal S100000 .f32) (bias : FVec Ideal S128 .f32) (a b k : FVec Ideal S_ .f32)
    (hd : V c main_v11 = shapeCast S100000x1 d shapeCasts_S100000_S100000x1)
    (hb : V c main_v58 = shapeCast S1x128 bias shapeCasts_S128_S1x128)
    (hk : V c main_v57 = shapeCast S1x3 (concatenate S3 0 [⟨S1, broadcastInDim S1 ![] bcast_S_S1 a⟩, ⟨S1, broadcastInDim S1 ![] bcast_S_S1 b⟩,
      ⟨S1, broadcastInDim S1 ![] bcast_S_S1 k⟩] concatenates_S1_S1_S1_S3_d0) shapeCasts_S3_S1x3) :
    (dat1 (F := Ideal) V c).arrAt 7 cfg1.N
      = Cert.Spec.layer (a ix0) (b ix0) (k ix0) (V c main_arg0) (V c main_v32) (Cert.Spec.lap d (V c main_v32) (V c main_v52)) (V c main_arg2) bias :=
  (dat1 (F := Ideal) V c).arrAt_eq_of_cover 7 _ (fun t _ => R1.flushed_eq V c d bias a b k hd hb hk t) R1.cover

end Cert.KernelIdeal.Val

end
-- ==== Proof.KIValue.lean ====
/-
  The kernel program's result, at the extended reals, is the layer of Spec.lean: region 0's output array is the first
  Laplacian of `x` (its neighbour sum computed by the first host stretch), the second host stretch applies the same neighbour
  sum to that array, and region 1's output array is the layer over `x`, the first Laplacian and the second.
-/
import proofs.«167365_j86371792323181_1_alg».proof.Proof.KIHost
import proofs.«167365_j86371792323181_1_alg».proof.Proof.KIValue0
import proofs.«167365_j86371792323181_1_alg».proof.Proof.KIValue1

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

variable (m : (ℓ : Loc nD τ sig) → Buf (Elt Ideal) ℓ) (ρ : Dev nD → PrngReg)

theorem V1_arg0 (c : Dev nD) : V1 m ρ c main_arg0 = m ((c.tc : Thread nD τ).loc main_arg0) :=
  StableHlo.after_of_writes_sub hostOps0 (W0 m ρ c) hostOps0_writes (r := main_arg0) (by decide)

/-- Region 0's output array is the first Laplacian of `x`. -/
theorem lx_eq (c : Dev nD) :
    (dat0 (F := Ideal) (V1 m ρ) c).arrAt 3 cfg0.N
      = Cert.Spec.lap (disOf (eiOf m c)) (m ((c.tc : Thread nD τ).loc main_arg0)) (aggOf (eiOf m c) (m ((c.tc : Thread nD τ).loc main_arg0))) := by
  rw [final0 (V1 m ρ) c (disOf (eiOf m c)) (V1_v11 m ρ c), V1_v31, V1_arg0]

/-- The result array after the run is the layer of the arguments. -/
theorem kernel_value (c : Dev nD) :
    W4 m ρ c (Proc.devRef .tc main_v59)
      = Cert.Spec.spectral (disOf (eiOf m c)) (aggOf (eiOf m c)) (m ((c.tc : Thread nD τ).loc main_arg4) ix0)
          (m ((c.tc : Thread nD τ).loc main_arg5) ix0) (m ((c.tc : Thread nD τ).loc main_arg6) ix0)
          (m ((c.tc : Thread nD τ).loc main_arg0)) (m ((c.tc : Thread nD τ).loc main_arg2)) (m ((c.tc : Thread nD τ).loc main_arg3)) := by
  refine (W4_arr m ρ c 7).trans ?_
  rw [final1 (V3 m ρ) c (disOf (eiOf m c)) (m ((c.tc : Thread nD τ).loc main_arg3)) (m ((c.tc : Thread nD τ).loc main_arg4))
    (m ((c.tc : Thread nD τ).loc main_arg5)) (m ((c.tc : Thread nD τ).loc main_arg6)) (V3_v11 m ρ c) (V3_v58 m ρ c) (V3_v57 m ρ c),
    V3_arg0, V3_arg2, V3_v32, V3_v52, lx_eq]
  rfl

end Cert.KernelIdeal.Val

end
-- ==== Proof.RefValue.lean ====
/-
  The reference's result is the layer of Spec.lean: its term, read one operation at a time, is the Laplacian twice, the
  polynomial, the matrix product as a sum over the 128 features, and the bias.
-/
import proofs.«167365_j86371792323181_1_alg».proof.Proof.Gen.ReferenceIdeal.Read
import proofs.«167365_j86371792323181_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The edges' target nodes (row 0 of the edge list) and source nodes (row 1), a negative source index wrapped once by
    the node count, as both programs read them. -/
def rowOf (ei : IVec S2x1600000 32) : IVec S1600000 32 :=
  shapeCast _ (extractStridedSlice S1x1600000 ![0, 0] ei slices_S2x1600000_S1x1600000_0_0) shapeCasts_S1x1600000_S1600000
def colOf (ei : IVec S2x1600000 32) : IVec S1600000 32 :=
  select (cmpi .slt (shapeCast _ (extractStridedSlice S1x1600000 ![1, 0] ei slices_S2x1600000_S1x1600000_1_0) shapeCasts_S1x1600000_S1600000) (broadcastInDim S1600000 ![] bcast_S_S1600000 (constantI S_ 32 0#32)))
    (addi (shapeCast _ (extractStridedSlice S1x1600000 ![1, 0] ei slices_S2x1600000_S1x1600000_1_0) shapeCasts_S1x1600000_S1600000) (broadcastInDim S1600000 ![] bcast_S_S1600000 (constantI S_ 32 100000#32)))
    (shapeCast _ (extractStridedSlice S1x1600000 ![1, 0] ei slices_S2x1600000_S1x1600000_1_0) shapeCasts_S1x1600000_S1600000)
/-- The nodes' inverse square-root degrees: one plus the number of edges into the node, under the reciprocal square root. -/
def disOf (ei : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (rowOf ei))
      (broadcastInDim S1600000 ![] bcast_S_S1600000 (constant S_ .f32 0x3F800000#32)))
    (broadcastInDim S100000 ![] bcast_S_S100000 (constant S_ .f32 0x3F800000#32)))
/-- The neighbour sum of `v`: per edge the source node's row of `v` scaled by the source's `d`, added up at the target node. -/
def aggOf (ei : IVec S2x1600000 32) (v : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (rowOf ei))
    (mulf (broadcastInDim S1600000x128 ![0, 1] bcast_S1600000x1_S1600000x128_0_1
        (broadcastInDim S1600000x1 ![0] bcast_S1600000_S1600000x1_0
          (Host.gather gather_S100000_S1600000x1_S1600000_n_0_n_n_0_1_1 (disOf ei) (broadcastInDim S1600000x1 ![0] bcast_S1600000_S1600000x1_0 (colOf ei)))))
      (Host.gather gather_S100000x128_S1600000x1_S1600000x128_1_0_n_n_0_1_1128 v (broadcastInDim S1600000x1 ![0] bcast_S1600000_S1600000x1_0 (colOf ei))))

/-! ### The host chains are values of the program -/

/-- The degrees' chain is the program's rsqrt of the degree count. -/
theorem dis_eq (ei : IVec S2x1600000 32) : disOf ei = val_main_v10 (F := Ideal) ei := by
  unfold disOf rowOf val_main_v10 val_main_v9 val_main_v7 val_main_v8 val_main_v6 val_main_v5 val_main_v4 val_main_v1 val_main_v0
    val_main_cst val_main_cst_0 val_main_cst_1
  rfl

/-- The neighbour sum of the input is the program's first scatter-add. -/
theorem agg_eq (ei : IVec S2x1600000 32) (x : FVec Ideal S100000x128 .f32) : aggOf ei x = val_main_v30 (F := Ideal) x ei := by
  unfold aggOf
  rw [dis_eq]
  unfold colOf rowOf val_main_v30 val_main_v28 val_main_v29 val_main_v27 val_main_v26 val_main_v25 val_main_v24 val_main_v23
    val_main_v22 val_main_v21 val_main_v20 val_main_v19 val_main_v18 val_main_v17 val_main_v16 val_main_v15 val_main_v14
    val_main_v13 val_main_v12 val_main_v11 val_main_v3 val_main_v2 val_main_v1 val_main_v0
    val_main_cst_5 val_main_c val_main_c_2 val_main_c_3 val_main_c_4
  rfl

/-- The neighbour sum of the first Laplacian is the program's second scatter-add. -/
theorem agg_eq' (ei : IVec S2x1600000 32) (x : FVec Ideal S100000x128 .f32) :
    aggOf ei (val_main_v38 (F := Ideal) x ei) = val_main_v58 (F := Ideal) x ei := by
  unfold aggOf
  rw [dis_eq]
  unfold colOf rowOf val_main_v58 val_main_v56 val_main_v57 val_main_v55 val_main_v54 val_main_v53 val_main_v52 val_main_v51
    val_main_v50 val_main_v49 val_main_v48 val_main_v47 val_main_v46 val_main_v45 val_main_v44 val_main_v43 val_main_v42
    val_main_v41 val_main_v40 val_main_v39 val_main_v3 val_main_v2 val_main_v1 val_main_v0
    val_main_cst_10 val_main_c_6 val_main_c_7 val_main_c_8 val_main_c_9
  rfl

/-! ### The composed index functions, by coordinates -/

theorem idx_d31 (n : Fin 100000) (o : Fin 128) : idx_main_v31 (idx_main_v36 (ix2 n o)) = ix1 n :=
  funext fun a => Fin.ext (by match a with | ⟨0, _⟩ => rfl)
theorem idx_d32 (n : Fin 100000) (o : Fin 128) : idx_main_v32 (idx_main_v33 (ix2 n o)) = ix1 n :=
  funext fun a => Fin.ext (by match a with | ⟨0, _⟩ => rfl)
theorem idx_d59 (n : Fin 100000) (o : Fin 128) : idx_main_v59 (idx_main_v64 (ix2 n o)) = ix1 n :=
  funext fun a => Fin.ext (by match a with | ⟨0, _⟩ => rfl)
theorem idx_d60 (n : Fin 100000) (o : Fin 128) : idx_main_v60 (idx_main_v61 (ix2 n o)) = ix1 n :=
  funext fun a => Fin.ext (by match a with | ⟨0, _⟩ => rfl)
theorem idx_bias (n : Fin 100000) (o : Fin 128) : idx_main_v76 (idx_main_v77 (ix2 n o)) = ix1 o :=
  funext fun a => Fin.ext (by match a with | ⟨0, _⟩ => rfl)
theorem idx_lhs (n : Fin 100000) (o : Fin 128) (q : Fin 128) : lidx_main_v75 (ix2 n o) q = ix2 n q :=
  funext fun a => Fin.ext (by match a with | ⟨0, _⟩ => rfl | ⟨1, _⟩ => rfl)
theorem idx_rhs (n : Fin 100000) (o : Fin 128) (q : Fin 128) : ridx_main_v75 (ix2 n o) q = ix2 q o :=
  funext fun a => Fin.ext (by match a with | ⟨0, _⟩ => rfl | ⟨1, _⟩ => rfl)
theorem idx_s67 (i : S100000x128.Idx) : idx_main_v67 i = ix0 := funext fun a => a.elim0
theorem idx_s69 (i : S100000x128.Idx) : idx_main_v69 i = ix0 := funext fun a => a.elim0
theorem idx_s72 (i : S100000x128.Idx) : idx_main_v72 i = ix0 := funext fun a => a.elim0

/-! ### The two Laplacians -/

/-- The first Laplacian, entry by entry: `x - d * (agg x + d * x)`. -/
theorem lap_one (x : FVec Ideal S100000x128 .f32) (ei : IVec S2x1600000 32) :
    val_main_v38 (F := Ideal) x ei = Cert.Spec.lap (disOf ei) x (aggOf ei x) := by
  funext i
  obtain ⟨n, o, rfl⟩ : ∃ (n : Fin 100000) (o : Fin 128), i = ix2 n o := ⟨i 0, i 1, eq_ix2 i⟩
  rw [Cert.Spec.lap_apply, agg_eq, dis_eq]
  rw [val_main_v38_apply, val_main_v37_apply, val_main_v36_apply, val_main_v31_apply, val_main_v35_apply, val_main_v34_apply,
    val_main_v33_apply, val_main_v32_apply, idx_d31, idx_d32]
  rfl

/-- The second Laplacian is the first one's formula at the first one's value. -/
theorem lap_two (x : FVec Ideal S100000x128 .f32) (ei : IVec S2x1600000 32) :
    val_main_v66 (F := Ideal) x ei
      = Cert.Spec.lap (disOf ei) (val_main_v38 (F := Ideal) x ei) (aggOf ei (val_main_v38 (F := Ideal) x ei)) := by
  funext i
  obtain ⟨n, o, rfl⟩ : ∃ (n : Fin 100000) (o : Fin 128), i = ix2 n o := ⟨i 0, i 1, eq_ix2 i⟩
  rw [Cert.Spec.lap_apply, agg_eq', dis_eq]
  rw [val_main_v66_apply, val_main_v65_apply, val_main_v64_apply, val_main_v59_apply, val_main_v63_apply, val_main_v62_apply,
    val_main_v61_apply, val_main_v60_apply, idx_d59, idx_d60]
  rfl

/-- The polynomial in the Laplacian at one entry. -/
theorem poly_apply (x : FVec Ideal S100000x128 .f32) (ei : IVec S2x1600000 32) (a b k : FVec Ideal S_ .f32)
    (n : Fin 100000) (q : Fin 128) :
    val_main_v74 (F := Ideal) x ei a b k (ix2 n q)
      = a ix0 * val_main_v66 (F := Ideal) x ei (ix2 n q) + b ix0 * val_main_v38 (F := Ideal) x ei (ix2 n q) + k ix0 * x (ix2 n q) := by
  rw [val_main_v74_apply, val_main_v71_apply, val_main_v68_apply, val_main_v67_apply, val_main_v70_apply, val_main_v69_apply,
    val_main_v73_apply, val_main_v72_apply, idx_s67, idx_s69, idx_s72]
  rfl

theorem result_eq (x : FVec Ideal S100000x128 .f32) (ei : IVec S2x1600000 32) (w : FVec Ideal S128x128 .f32) (bias : FVec Ideal S128 .f32)
    (a b k : FVec Ideal S_ .f32) :
    val_main_v78 (F := Ideal) x ei w bias a b k
      = Cert.Spec.spectral (disOf ei) (aggOf ei) (a ix0) (b ix0) (k ix0) x w bias := by
  funext i
  obtain ⟨n, o, rfl⟩ : ∃ (n : Fin 100000) (o : Fin 128), i = ix2 n o := ⟨i 0, i 1, eq_ix2 i⟩
  unfold Cert.Spec.spectral
  rw [Cert.Spec.layer_apply, ← lap_one x ei, ← lap_two x ei]
  rw [val_main_v78_apply, val_main_v77_apply, val_main_v76_apply, val_main_v75_apply, idx_bias]
  refine congrArg₂ (· + ·) (Finset.sum_congr rfl fun q _ => ?_) rfl
  rw [idx_lhs, idx_rhs, poly_apply]

end Cert.ReferenceIdeal.RefValue

end
-- ==== Proof.lean ====
/-
  Both programs compute one layer of a spectral graph convolution: with `d` the nodes' inverse square-root degrees (one plus
  the number of edges into the node, under the reciprocal square root) and `agg v` the neighbour sum (per edge the source
  node's row of `v` scaled by the source's `d`, added up at the target node), the normalized Laplacian is
  `L v = v - d * (agg v + d * v)` and the output is `(a * L (L x) + b * L x + c * x) W + bias`. The reference is one host
  program. The kernel program computes `d`, `agg x` and `agg (L x)` by the same host operations, `L x` in a first pipelined
  region over 20 blocks of 5000 rows, and the second Laplacian, the polynomial, the 128-column matrix product and the bias
  in a second one. Over the extended reals a change of float format is the identity and the matrix unit's product into a
  zero accumulator is the plain sum over the 128 features, so the two results are the same expression entry by entry; no
  law of the extended reals beyond reading the operations is used, and the precondition is never opened.
  The frames: each region's body is run once at a symbolic grid point (whole-buffer loads, one whole-buffer store); the
  regions are chained with the host stretches from the launch to the return, and every argument is read back unchanged.
-/
import proofs.«167365_j86371792323181_1_alg».proof.Defs
import proofs.«167365_j86371792323181_1_alg».proof.Proof.Gen.Kernel
import proofs.«167365_j86371792323181_1_alg».proof.Proof.Gen.KernelIdeal
import proofs.«167365_j86371792323181_1_alg».proof.Proof.Gen.ReferenceIdeal
import proofs.«167365_j86371792323181_1_alg».proof.Proof.Gen.Pre_finite_inputs
import proofs.«167365_j86371792323181_1_alg».proof.Proof.Gen.ReferenceIdeal.Run
import proofs.«167365_j86371792323181_1_alg».proof.Proof.Gen.ReferenceIdeal.Read
import proofs.«167365_j86371792323181_1_alg».proof.Proof.KRun
import proofs.«167365_j86371792323181_1_alg».proof.Proof.KIRun
import proofs.«167365_j86371792323181_1_alg».proof.Proof.KIValue
import proofs.«167365_j86371792323181_1_alg».proof.Proof.RefValue

noncomputable section

namespace Cert.Proof

open Idealize.ShloMosaic Idealize.ShloMosaic.TcCoe Idealize.ShloMosaic.ValueIdx Idealize.SL.Sem

/-- The two programs read the edge list, the degrees and the neighbour sum by the same operations. -/
theorem dis_same (ei : IVec Cert.KernelIdeal.S2x1600000 32) :
    Cert.ReferenceIdeal.RefValue.disOf ei = Cert.KernelIdeal.Val.disOf ei := by
  unfold Cert.ReferenceIdeal.RefValue.disOf Cert.KernelIdeal.Val.disOf Cert.ReferenceIdeal.RefValue.rowOf Cert.KernelIdeal.Val.rowOf
  rfl
theorem agg_same (ei : IVec Cert.KernelIdeal.S2x1600000 32) :
    Cert.ReferenceIdeal.RefValue.aggOf ei = Cert.KernelIdeal.Val.aggOf ei := by
  funext v
  unfold Cert.ReferenceIdeal.RefValue.aggOf Cert.KernelIdeal.Val.aggOf
  rw [dis_same]
  unfold Cert.ReferenceIdeal.RefValue.rowOf Cert.KernelIdeal.Val.rowOf Cert.ReferenceIdeal.RefValue.colOf Cert.KernelIdeal.Val.colOf
  rfl

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the layer of the arguments. -/
theorem algebraic : Cert.algebraic_KernelIdeal_ReferenceIdeal := by
  intro m ρ m' ρ' _ hagree
  refine ⟨fun c => Cert.Spec.spectral (Cert.KernelIdeal.Val.disOf (Cert.KernelIdeal.Val.eiOf m c))
      (Cert.KernelIdeal.Val.aggOf (Cert.KernelIdeal.Val.eiOf m c)) (m ((c.tc : Thread Cert.KernelIdeal.nD Cert.KernelIdeal.τ).loc Cert.KernelIdeal.main_arg4) ix0) (m ((c.tc : Thread Cert.KernelIdeal.nD Cert.KernelIdeal.τ).loc Cert.KernelIdeal.main_arg5) ix0) (m ((c.tc : Thread Cert.KernelIdeal.nD Cert.KernelIdeal.τ).loc Cert.KernelIdeal.main_arg6) ix0)
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c =>
      ⟨(h c Cert.KernelIdeal.main_v59 (by decide)).trans (Cert.KernelIdeal.Val.kernel_value m ρ c),
       (h c Cert.KernelIdeal.main_arg0 (by decide)).trans (Cert.KernelIdeal.Frm.W4_main_arg0 m ρ c),
       (h c Cert.KernelIdeal.main_arg1 (by decide)).trans (Cert.KernelIdeal.Frm.W4_main_arg1 m ρ c),
       (h c Cert.KernelIdeal.main_arg2 (by decide)).trans (Cert.KernelIdeal.Frm.W4_main_arg2 m ρ c),
       (h c Cert.KernelIdeal.main_arg3 (by decide)).trans (Cert.KernelIdeal.Frm.W4_main_arg3 m ρ c),
       (h c Cert.KernelIdeal.main_arg4 (by decide)).trans (Cert.KernelIdeal.Frm.W4_main_arg4 m ρ c),
       (h c Cert.KernelIdeal.main_arg5 (by decide)).trans (Cert.KernelIdeal.Frm.W4_main_arg5 m ρ c),
       (h c Cert.KernelIdeal.main_arg6 (by decide)).trans (Cert.KernelIdeal.Frm.W4_main_arg6 m ρ c)⟩)
      (Cert.KernelIdeal.Frm.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v78_eq, Cert.ReferenceIdeal.RefValue.result_eq, dis_same, agg_same,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
